-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x100000x10 : Shape := ⟨3, ![64, 100000, 10]⟩
abbrev S64x169 : Shape := ⟨2, ![64, 169]⟩
abbrev S_ : Shape := ⟨0, ![]⟩

class Facts : Prop where
  bcast_S_S64x100000x10 : S_.BroadcastsInDim S64x100000x10 (![] : Fin 0 → Fin S64x100000x10.rank)
  reducesTo_S64x100000x10_S_d0_1_2 : S64x100000x10.ReducesTo [0, 1, 2] S_
  h_S_ : 0 < S_.numel
  bcast_S_S64x169 : S_.BroadcastsInDim S64x169 (![] : Fin 0 → Fin S64x169.rank)
  reducesTo_S64x169_S_d0_1 : S64x169.ReducesTo [0, 1] S_

variable [Facts]

def fn {F : FTy → Type} [FloatOps F] (main_arg0 : FVec F S64x100000x10 .f32) (main_arg1 : FVec F S64x169 .f32) : IVec S_ 1 :=
  let main_v0 : FVec F S64x100000x10 .f32 := Host.absf main_arg0
  let main_cst : FVec F S_ .f32 := constant S_ .f32 0x7F800000#32
  let main_v1 : FVec F S64x100000x10 .f32 := broadcastInDim S64x100000x10 ![] bcast_S_S64x100000x10 main_cst
  let main_v2 : IVec S64x100000x10 1 := cmpf .olt main_v0 main_v1
  let main_c : IVec S_ 1 := constantI S_ 1 1#1
  let main_v3 : IVec S_ 1 := (fun x v => Host.reduce IntOp.andi x v reducesTo_S64x100000x10_S_d0_1_2 h_S_) main_v2 main_c
  let main_v4 : FVec F S64x169 .f32 := Host.absf main_arg1
  let main_cst_0 : FVec F S_ .f32 := constant S_ .f32 0x7F800000#32
  let main_v5 : FVec F S64x169 .f32 := broadcastInDim S64x169 ![] bcast_S_S64x169 main_cst_0
  let main_v6 : IVec S64x169 1 := cmpf .olt main_v4 main_v5
  let main_c_1 : IVec S_ 1 := constantI S_ 1 1#1
  let main_v7 : IVec S_ 1 := (fun x v => Host.reduce IntOp.andi x v reducesTo_S64x169_S_d0_1 h_S_) main_v6 main_c_1
  let main_v8 : IVec S_ 1 := andi main_v3 main_v7
  main_v8
-- ==== Kernel.lean ====
abbrev S64x100000x10 : Shape := ⟨3, ![64, 100000, 10]⟩
abbrev S64x169 : Shape := ⟨2, ![64, 169]⟩
abbrev S64x80 : Shape := ⟨2, ![64, 80]⟩
abbrev S64x8x10 : Shape := ⟨3, ![64, 8, 10]⟩
abbrev S64x8 : Shape := ⟨2, ![64, 8]⟩
abbrev S64x64 : Shape := ⟨2, ![64, 64]⟩
abbrev S64x8x8 : Shape := ⟨3, ![64, 8, 8]⟩
abbrev S64x1x8 : Shape := ⟨3, ![64, 1, 8]⟩
abbrev S64x1 : Shape := ⟨2, ![64, 1]⟩
abbrev S_ : Shape := ⟨0, ![]⟩
abbrev S64x100096x10 : Shape := ⟨3, ![64, 100096, 10]⟩
abbrev S64x100096 : Shape := ⟨2, ![64, 100096]⟩
abbrev S64x128x10 : Shape := ⟨3, ![64, 128, 10]⟩
abbrev S64x128 : Shape := ⟨2, ![64, 128]⟩
abbrev S64x128x8 : Shape := ⟨3, ![64, 128, 8]⟩
abbrev S64x128x1 : Shape := ⟨3, ![64, 128, 1]⟩
abbrev S64x8x1 : Shape := ⟨3, ![64, 8, 1]⟩
abbrev S64x100000 : Shape := ⟨2, ![64, 100000]⟩

abbrev nBuf : Space → Nat
  | .hbm => 22
  | .vmem => 10
  | .smem => 0
  | _ => 0

abbrev bufTy : (tb : Table) → Fin (tcTables nBuf tb) → BufTy
  | .hbm, ⟨0, _⟩ => ⟨S64x100000x10, .f32⟩
  | .hbm, ⟨1, _⟩ => ⟨S64x169, .f32⟩
  | .hbm, ⟨2, _⟩ => ⟨S64x80, .f32⟩
  | .hbm, ⟨3, _⟩ => ⟨S64x8x10, .f32⟩
  | .hbm, ⟨4, _⟩ => ⟨S64x8, .f32⟩
  | .hbm, ⟨5, _⟩ => ⟨S64x64, .f32⟩
  | .hbm, ⟨6, _⟩ => ⟨S64x8x8, .f32⟩
  | .hbm, ⟨7, _⟩ => ⟨S64x8, .f32⟩
  | .hbm, ⟨8, _⟩ => ⟨S64x8, .f32⟩
  | .hbm, ⟨9, _⟩ => ⟨S64x1x8, .f32⟩
  | .hbm, ⟨10, _⟩ => ⟨S64x1, .f32⟩
  | .hbm, ⟨11, _⟩ => ⟨S_, .i32⟩
  | .hbm, ⟨12, _⟩ => ⟨S_, .f32⟩
  | .hbm, ⟨13, _⟩ => ⟨S64x8x8, .f32⟩
  | .hbm, ⟨14, _⟩ => ⟨S_, .i32⟩
  | .hbm, ⟨15, _⟩ => ⟨S_, .f32⟩
  | .hbm, ⟨16, _⟩ => ⟨S64x8, .f32⟩
  | .hbm, ⟨17, _⟩ => ⟨S_, .i32⟩
  | .hbm, ⟨18, _⟩ => ⟨S_, .f32⟩
  | .hbm, ⟨19, _⟩ => ⟨S64x100096x10, .f32⟩
  | .hbm, ⟨20, _⟩ => ⟨S64x100096, .f32⟩
  | .hbm, ⟨21, _⟩ => ⟨S64x100000, .f32⟩
  | .local _ .vmem, ⟨0, _⟩ => ⟨S64x128x10, .f32⟩
  | .local _ .vmem, ⟨1, _⟩ => ⟨S64x128x10, .f32⟩
  | .local _ .vmem, ⟨2, _⟩ => ⟨S64x8x10, .f32⟩
  | .local _ .vmem, ⟨3, _⟩ => ⟨S64x8, .f32⟩
  | .local _ .vmem, ⟨4, _⟩ => ⟨S64x8x8, .f32⟩
  | .local _ .vmem, ⟨5, _⟩ => ⟨S64x8, .f32⟩
  | .local _ .vmem, ⟨6, _⟩ => ⟨S64x8x8, .f32⟩
  | .local _ .vmem, ⟨7, _⟩ => ⟨S64x8, .f32⟩
  | .local _ .vmem, ⟨8, _⟩ => ⟨S64x128, .f32⟩
  | .local _ .vmem, ⟨9, _⟩ => ⟨S64x128, .f32⟩
  | _, _ => ⟨S64x100000x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_call0_v0 : Ref sig .tc := ⟨.hbm, 12, rfl⟩
abbrev main_v9 : Ref sig .tc := ⟨.hbm, 13, rfl⟩
abbrev main_c_0 : Ref sig .tc := ⟨.hbm, 14, rfl⟩
abbrev main_call1_v0 : Ref sig .tc := ⟨.hbm, 15, rfl⟩
abbrev main_v10 : Ref sig .tc := ⟨.hbm, 16, rfl⟩
abbrev main_c_1 : Ref sig .tc := ⟨.hbm, 17, rfl⟩
abbrev main_call2_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![782], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S64x128x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x8x10 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x8x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x8x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S64x169_S64x80_0_0 : S64x169.Slices ![0, 0] S64x80
  shapeCasts_S64x80_S64x8x10 : S64x80.ShapeCasts S64x8x10
  slices_S64x169_S64x8_0_80 : S64x169.Slices ![0, 80] S64x8
  slices_S64x169_S64x64_0_88 : S64x169.Slices ![0, 88] S64x64
  shapeCasts_S64x64_S64x8x8 : S64x64.ShapeCasts S64x8x8
  slices_S64x169_S64x8_0_152 : S64x169.Slices ![0, 152] S64x8
  slices_S64x169_S64x8_0_160 : S64x169.Slices ![0, 160] S64x8
  shapeCasts_S64x8_S64x1x8 : S64x8.ShapeCasts S64x1x8
  slices_S64x169_S64x1_0_168 : S64x169.Slices ![0, 168] S64x1
  pads_S64x1x8_S64x8x8_000_070_000 : S64x1x8.Pads (![0, 0, 0] : Fin 3 → Nat) ![0, 7, 0] ![0, 0, 0] S64x8x8
  h_S_ : 0 < S_.numel
  pads_S64x1_S64x8_000_070 : S64x1.Pads (![0, 0] : Fin 2 → Nat) ![0, 7] ![0, 0] S64x8
  pads_S64x100000x10_S64x100096x10_000_0960_000 : S64x100000x10.Pads (![0, 0, 0] : Fin 3 → Nat) ![0, 96, 0] ![0, 0, 0] S64x100096x10
  inb_S64x128x10_S64x128x10_0_0_0 : ∀ a, (![0, 0, 0] : Fin 3 → Nat) a + S64x128x10.size a ≤ S64x128x10.size a
  h_S64x128x10 : 0 < S64x128x10.numel
  shapeCasts_S64x128x10_S64x128x10 : S64x128x10.ShapeCasts S64x128x10
  inb_S64x8x10_S64x8x10_0_0_0 : ∀ a, (![0, 0, 0] : Fin 3 → Nat) a + S64x8x10.size a ≤ S64x8x10.size a
  h_S64x8x10 : 0 < S64x8x10.numel
  shapeCasts_S64x8x10_S64x8x10 : S64x8x10.ShapeCasts S64x8x10
  inb_S64x8_S64x8_0_0 : ∀ a, (![0, 0] : Fin 2 → Nat) a + S64x8.size a ≤ S64x8.size a
  h_S64x8 : 0 < S64x8.numel
  shapeCasts_S64x8_S64x8 : S64x8.ShapeCasts S64x8
  slices_S64x128x10_o0_0_0_S64x128x1 : S64x128x10.Slices ![0, 0, 0] S64x128x1
  slices_S64x8x10_o0_0_0_S64x8x1 : S64x8x10.Slices ![0, 0, 0] S64x8x1
  shapeCasts_S64x8x1_S64x8 : S64x8x1.ShapeCasts S64x8
  broadcasts_S64x128x1_S64x128x8 : S64x128x1.Broadcasts S64x128x8
  broadcasts_S64x1x8_S64x128x8 : S64x1x8.Broadcasts S64x128x8
  slices_S64x128x10_o0_0_1_S64x128x1 : S64x128x10.Slices ![0, 0, 1] S64x128x1
  slices_S64x8x10_o0_0_1_S64x8x1 : S64x8x10.Slices ![0, 0, 1] S64x8x1
  slices_S64x128x10_o0_0_2_S64x128x1 : S64x128x10.Slices ![0, 0, 2] S64x128x1
  slices_S64x8x10_o0_0_2_S64x8x1 : S64x8x10.Slices ![0, 0, 2] S64x8x1
  slices_S64x128x10_o0_0_3_S64x128x1 : S64x128x10.Slices ![0, 0, 3] S64x128x1
  slices_S64x8x10_o0_0_3_S64x8x1 : S64x8x10.Slices ![0, 0, 3] S64x8x1
  slices_S64x128x10_o0_0_4_S64x128x1 : S64x128x10.Slices ![0, 0, 4] S64x128x1
  slices_S64x8x10_o0_0_4_S64x8x1 : S64x8x10.Slices ![0, 0, 4] S64x8x1
  slices_S64x128x10_o0_0_5_S64x128x1 : S64x128x10.Slices ![0, 0, 5] S64x128x1
  slices_S64x8x10_o0_0_5_S64x8x1 : S64x8x10.Slices ![0, 0, 5] S64x8x1
  slices_S64x128x10_o0_0_6_S64x128x1 : S64x128x10.Slices ![0, 0, 6] S64x128x1
  slices_S64x8x10_o0_0_6_S64x8x1 : S64x8x10.Slices ![0, 0, 6] S64x8x1
  slices_S64x128x10_o0_0_7_S64x128x1 : S64x128x10.Slices ![0, 0, 7] S64x128x1
  slices_S64x8x10_o0_0_7_S64x8x1 : S64x8x10.Slices ![0, 0, 7] S64x8x1
  slices_S64x128x10_o0_0_8_S64x128x1 : S64x128x10.Slices ![0, 0, 8] S64x128x1
  slices_S64x8x10_o0_0_8_S64x8x1 : S64x8x10.Slices ![0, 0, 8] S64x8x1
  slices_S64x128x10_o0_0_9_S64x128x1 : S64x128x10.Slices ![0, 0, 9] S64x128x1
  slices_S64x8x10_o0_0_9_S64x8x1 : S64x8x10.Slices ![0, 0, 9] S64x8x1
  inb_S64x8x8_S64x8x8_0_0_0 : ∀ a, (![0, 0, 0] : Fin 3 → Nat) a + S64x8x8.size a ≤ S64x8x8.size a
  h_S64x8x8 : 0 < S64x8x8.numel
  shapeCasts_S64x8x8_S64x8x8 : S64x8x8.ShapeCasts S64x8x8
  slices_S64x128x8_o0_0_0_S64x128x1 : S64x128x8.Slices ![0, 0, 0] S64x128x1
  slices_S64x8x8_o0_0_0_S64x8x1 : S64x8x8.Slices ![0, 0, 0] S64x8x1
  slices_S64x128x8_o0_0_1_S64x128x1 : S64x128x8.Slices ![0, 0, 1] S64x128x1
  slices_S64x8x8_o0_0_1_S64x8x1 : S64x8x8.Slices ![0, 0, 1] S64x8x1
  slices_S64x128x8_o0_0_2_S64x128x1 : S64x128x8.Slices ![0, 0, 2] S64x128x1
  slices_S64x8x8_o0_0_2_S64x8x1 : S64x8x8.Slices ![0, 0, 2] S64x8x1
  slices_S64x128x8_o0_0_3_S64x128x1 : S64x128x8.Slices ![0, 0, 3] S64x128x1
  slices_S64x8x8_o0_0_3_S64x8x1 : S64x8x8.Slices ![0, 0, 3] S64x8x1
  slices_S64x128x8_o0_0_4_S64x128x1 : S64x128x8.Slices ![0, 0, 4] S64x128x1
  slices_S64x8x8_o0_0_4_S64x8x1 : S64x8x8.Slices ![0, 0, 4] S64x8x1
  slices_S64x128x8_o0_0_5_S64x128x1 : S64x128x8.Slices ![0, 0, 5] S64x128x1
  slices_S64x8x8_o0_0_5_S64x8x1 : S64x8x8.Slices ![0, 0, 5] S64x8x1
  slices_S64x128x8_o0_0_6_S64x128x1 : S64x128x8.Slices ![0, 0, 6] S64x128x1
  slices_S64x8x8_o0_0_6_S64x8x1 : S64x8x8.Slices ![0, 0, 6] S64x8x1
  slices_S64x128x8_o0_0_7_S64x128x1 : S64x128x8.Slices ![0, 0, 7] S64x128x1
  slices_S64x8x8_o0_0_7_S64x8x1 : S64x8x8.Slices ![0, 0, 7] S64x8x1
  shapeCasts_S64x128x1_S64x128 : S64x128x1.ShapeCasts S64x128
  inb_S64x128_S64x128_0_0 : ∀ a, (![0, 0] : Fin 2 → Nat) a + S64x128.size a ≤ S64x128.size a
  h_S64x128 : 0 < S64x128.numel
  slices_S64x100096_S64x100000_0_0 : S64x100096.Slices ![0, 0] S64x100000
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128x10.size a ≤ S64x100096x10.size a
  hwx0_0 : ∀ i : grid0.Coords, EltTy.bits .f32 = 32 ∨ (Rect.block (s := S64x100096x10) S64x128x10.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x8x10.size a ≤ S64x8x10.size a
  hwx0_1 : ∀ i : grid0.Coords, EltTy.bits .f32 = 32 ∨ (Rect.block (s := S64x8x10) S64x8x10.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x8.size a ≤ S64x8.size a
  hwx0_2 : ∀ i : grid0.Coords, EltTy.bits .f32 = 32 ∨ (Rect.block (s := S64x8) S64x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x8x8.size a ≤ S64x8x8.size a
  hwx0_3 : ∀ i : grid0.Coords, EltTy.bits .f32 = 32 ∨ (Rect.block (s := S64x8x8) S64x8x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x8.size a ≤ S64x8.size a
  hwx0_4 : ∀ i : grid0.Coords, EltTy.bits .f32 = 32 ∨ (Rect.block (s := S64x8) S64x8.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x8x8.size a ≤ S64x8x8.size a
  hwx0_5 : ∀ i : grid0.Coords, EltTy.bits .f32 = 32 ∨ (Rect.block (s := S64x8x8) S64x8x8.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x8.size a ≤ S64x8.size a
  hwx0_6 : ∀ i : grid0.Coords, EltTy.bits .f32 = 32 ∨ (Rect.block (s := S64x8) S64x8.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x128.size a ≤ S64x100096.size a
  hwx0_7 : ∀ i : grid0.Coords, EltTy.bits .f32 = 32 ∨ (Rect.block (s := S64x100096) S64x128.size (cc0_transform_7 i) (hinb0_7 i)).WholeWords (EltTy.packing .f32)

variable [Facts₀]

abbrev win0_0 : Pipeline.Window sig grid0 :=
  Pipeline.Window.ofSpec (Memref.whole main_v11) S64x128x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x8x10.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S64x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S64x8x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S64x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S64x8x8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S64x8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S64x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S64x100000x10 : Shape := ⟨3, ![64, 100000, 10]⟩
abbrev S64x169 : Shape := ⟨2, ![64, 169]⟩
abbrev S64x80 : Shape := ⟨2, ![64, 80]⟩
abbrev S64x8x10 : Shape := ⟨3, ![64, 8, 10]⟩
abbrev S64x8 : Shape := ⟨2, ![64, 8]⟩
abbrev S64x100000x8 : Shape := ⟨3, ![64, 100000, 8]⟩
abbrev S64x1x8 : Shape := ⟨3, ![64, 1, 8]⟩
abbrev S_ : Shape := ⟨0, ![]⟩
abbrev S64x64 : Shape := ⟨2, ![64, 64]⟩
abbrev S64x8x8 : Shape := ⟨3, ![64, 8, 8]⟩
abbrev S64x1 : Shape := ⟨2, ![64, 1]⟩
abbrev S64x100000x1 : Shape := ⟨3, ![64, 100000, 1]⟩
abbrev S64x1x1 : Shape := ⟨3, ![64, 1, 1]⟩
abbrev S64x100000 : Shape := ⟨2, ![64, 100000]⟩

abbrev nBuf : Space → Nat
  | .hbm => 38
  | .vmem => 0
  | .smem => 0
  | _ => 0

abbrev bufTy : (tb : Table) → Fin (tcTables nBuf tb) → BufTy
  | .hbm, ⟨0, _⟩ => ⟨S64x100000x10, .f32⟩
  | .hbm, ⟨1, _⟩ => ⟨S64x169, .f32⟩
  | .hbm, ⟨2, _⟩ => ⟨S64x80, .f32⟩
  | .hbm, ⟨3, _⟩ => ⟨S64x8x10, .f32⟩
  | .hbm, ⟨4, _⟩ => ⟨S64x8, .f32⟩
  | .hbm, ⟨5, _⟩ => ⟨S64x100000x8, .f32⟩
  | .hbm, ⟨6, _⟩ => ⟨S64x1x8, .f32⟩
  | .hbm, ⟨7, _⟩ => ⟨S64x100000x8, .f32⟩
  | .hbm, ⟨8, _⟩ => ⟨S64x100000x8, .f32⟩
  | .hbm, ⟨9, _⟩ => ⟨S_, .f32⟩
  | .hbm, ⟨10, _⟩ => ⟨S64x100000x8, .f32⟩
  | .hbm, ⟨11, _⟩ => ⟨S64x100000x8, .f32⟩
  | .hbm, ⟨12, _⟩ => ⟨S64x64, .f32⟩
  | .hbm, ⟨13, _⟩ => ⟨S64x8x8, .f32⟩
  | .hbm, ⟨14, _⟩ => ⟨S64x8, .f32⟩
  | .hbm, ⟨15, _⟩ => ⟨S64x100000x8, .f32⟩
  | .hbm, ⟨16, _⟩ => ⟨S64x1x8, .f32⟩
  | .hbm, ⟨17, _⟩ => ⟨S64x100000x8, .f32⟩
  | .hbm, ⟨18, _⟩ => ⟨S64x100000x8, .f32⟩
  | .hbm, ⟨19, _⟩ => ⟨S_, .f32⟩
  | .hbm, ⟨20, _⟩ => ⟨S64x100000x8, .f32⟩
  | .hbm, ⟨21, _⟩ => ⟨S64x100000x8, .f32⟩
  | .hbm, ⟨22, _⟩ => ⟨S64x8, .f32⟩
  | .hbm, ⟨23, _⟩ => ⟨S64x1x8, .f32⟩
  | .hbm, ⟨24, _⟩ => ⟨S64x1, .f32⟩
  | .hbm, ⟨25, _⟩ => ⟨S64x100000x1, .f32⟩
  | .hbm, ⟨26, _⟩ => ⟨S64x1x1, .f32⟩
  | .hbm, ⟨27, _⟩ => ⟨S64x100000x1, .f32⟩
  | .hbm, ⟨28, _⟩ => ⟨S64x100000x1, .f32⟩
  | .hbm, ⟨29, _⟩ => ⟨S64x100000, .f32⟩
  | .hbm, ⟨30, _⟩ => ⟨S64x100000, .f32⟩
  | .hbm, ⟨31, _⟩ => ⟨S64x100000, .f32⟩
  | .hbm, ⟨32, _⟩ => ⟨S_, .f32⟩
  | .hbm, ⟨33, _⟩ => ⟨S64x100000, .f32⟩
  | .hbm, ⟨34, _⟩ => ⟨S64x100000, .f32⟩
  | .hbm, ⟨35, _⟩ => ⟨S_, .f32⟩
  | .hbm, ⟨36, _⟩ => ⟨S64x100000, .f32⟩
  | .hbm, ⟨37, _⟩ => ⟨S64x100000, .f32⟩
  | _, _ => ⟨S64x100000x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_cst : Ref sig .tc := ⟨.hbm, 9, rfl⟩
abbrev main_call0_v0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_call1_cst : Ref sig .tc := ⟨.hbm, 19, rfl⟩
abbrev main_call1_v0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst : Ref sig .tc := ⟨.hbm, 32, rfl⟩
abbrev main_v26 : Ref sig .tc := ⟨.hbm, 33, rfl⟩
abbrev main_v27 : Ref sig .tc := ⟨.hbm, 34, rfl⟩
abbrev main_cst_0 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]

class Facts₀ : Prop where
  slices_S64x169_S64x80_0_0 : S64x169.Slices ![0, 0] S64x80
  shapeCasts_S64x80_S64x8x10 : S64x80.ShapeCasts S64x8x10
  slices_S64x169_S64x8_0_80 : S64x169.Slices ![0, 80] S64x8
  bcast_S64x8_S64x1x8_0_2 : S64x8.BroadcastsInDim S64x1x8 (![0, 2] : Fin 2 → Fin S64x1x8.rank)
  bcast_S64x1x8_S64x100000x8_0_1_2 : S64x1x8.BroadcastsInDim S64x100000x8 (![0, 1, 2] : Fin 3 → Fin S64x100000x8.rank)
  bcast_S_S64x100000x8 : S_.BroadcastsInDim S64x100000x8 (![] : Fin 0 → Fin S64x100000x8.rank)
  slices_S64x169_S64x64_0_88 : S64x169.Slices ![0, 88] S64x64
  shapeCasts_S64x64_S64x8x8 : S64x64.ShapeCasts S64x8x8
  slices_S64x169_S64x8_0_152 : S64x169.Slices ![0, 152] S64x8
  slices_S64x169_S64x8_0_160 : S64x169.Slices ![0, 160] S64x8
  shapeCasts_S64x8_S64x1x8 : S64x8.ShapeCasts S64x1x8
  slices_S64x169_S64x1_0_168 : S64x169.Slices ![0, 168] S64x1
  bcast_S64x1_S64x1x1_0_2 : S64x1.BroadcastsInDim S64x1x1 (![0, 2] : Fin 2 → Fin S64x1x1.rank)
  bcast_S64x1x1_S64x100000x1_0_1_2 : S64x1x1.BroadcastsInDim S64x100000x1 (![0, 1, 2] : Fin 3 → Fin S64x100000x1.rank)
  shapeCasts_S64x100000x1_S64x100000 : S64x100000x1.ShapeCasts S64x100000
  bcast_S_S64x100000 : S_.BroadcastsInDim S64x100000 (![] : Fin 0 → Fin S64x100000.rank)
  dot_S64x100000x10_S64x8x10_S64x100000x8_2_2_1_1_0_0_wf : DotDims.WF S64x100000x10 S64x8x10 S64x100000x8 [2] [2] [1] [1] [0] [0]
  dot_S64x100000x8_S64x8x8_S64x100000x8_2_2_1_1_0_0_wf : DotDims.WF S64x100000x8 S64x8x8 S64x100000x8 [2] [2] [1] [1] [0] [0]
  dot_S64x100000x8_S64x1x8_S64x100000x1_2_2_1_1_0_0_wf : DotDims.WF S64x100000x8 S64x1x8 S64x100000x1 [2] [2] [1] [1] [0] [0]

variable [Facts₀]

def dot_S64x100000x10_S64x8x10_S64x100000x8_2_2_1_1_0_0 : DotDims S64x100000x10 S64x8x10 S64x100000x8 where
  lhsContracting := [2]
  rhsContracting := [2]
  lhsNonContracting := [1]
  rhsNonContracting := [1]
  lhsBatch := [0]
  rhsBatch := [0]
  wf := dot_S64x100000x10_S64x8x10_S64x100000x8_2_2_1_1_0_0_wf
def dot_S64x100000x8_S64x8x8_S64x100000x8_2_2_1_1_0_0 : DotDims S64x100000x8 S64x8x8 S64x100000x8 where
  lhsContracting := [2]
  rhsContracting := [2]
  lhsNonContracting := [1]
  rhsNonContracting := [1]
  lhsBatch := [0]
  rhsBatch := [0]
  wf := dot_S64x100000x8_S64x8x8_S64x100000x8_2_2_1_1_0_0_wf
def dot_S64x100000x8_S64x1x8_S64x100000x1_2_2_1_1_0_0 : DotDims S64x100000x8 S64x1x8 S64x100000x1 where
  lhsContracting := [2]
  rhsContracting := [2]
  lhsNonContracting := [1]
  rhsNonContracting := [1]
  lhsBatch := [0]
  rhsBatch := [0]
  wf := dot_S64x100000x8_S64x1x8_S64x100000x1_2_2_1_1_0_0_wf

class Facts : Prop extends Facts₀ where

variable [Facts]
-- ==== Proof.LibLastAxis.lean ====
/-
  Rank-3 arrays read along their last axis, index by index.

  A per-instance linear layer written as an explicit sum over the contracted axis takes, for each contracted
  coordinate `k`, the width-one slice `[a, b, k:k+1]` of one operand, drops or moves the unit axis by a shape cast,
  and broadcasts the result back to `[a, b, c]`.  Each lemma below reads one of those layout operations at an index
  written by coordinates (`ix2`, `ix3`), so that a chain of them rewrites a broadcast product to a product of two
  entries.  Also here: a host `pad` that only appends entries at the high end of axis 1 (rank 3) or of axis 1
  (rank 2), read at an index inside the operand.
-/
import Idealize.ShloMosaic.Lib.ValueLayout
import Idealize.ShloMosaic.Lib.KernelVsHost

namespace LastAxis

open Idealize.ShloMosaic Idealize.ShloMosaic.ValueIdx

variable {α : Type}

/-- The width-one slice of the last axis at offset `o` reads, at `(a, b, _)`, the source at `(a, b, o)`. -/
theorem slice3_last_unit {n0 n1 n2 : Nat} (o : Nat) (X : (⟨3, ![n0, n1, n2]⟩ : Shape).Idx → α)
    (h : (⟨3, ![n0, n1, n2]⟩ : Shape).Slices ![0, 0, o] ⟨3, ![n0, n1, 1]⟩) (a : Fin n0) (b : Fin n1) (z : Fin 1) :
    extractStridedSlice ⟨3, ![n0, n1, 1]⟩ ![0, 0, o] X h (ix3 a b z)
      = X (ix3 a b ⟨o, Nat.lt_of_lt_of_le (Nat.lt_succ_self o) (h.2 2)⟩) :=
  extractStridedSlice_apply _ _ _ _ _ (fun ax => by
    match ax with
    | ⟨0, _⟩ => exact (Nat.zero_add _).symm
    | ⟨1, _⟩ => exact (Nat.zero_add _).symm
    | ⟨2, _⟩ =>
      show o = o + z.val
      have := z.isLt
      omega)

/-- An `[a, b, 1]` array cast to `[a, b]` reads, at `(i, j)`, the operand at `(i, j, 0)`. -/
theorem shapeCast_ab1_ab {a b : Nat} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    omega)

/-- An `[a, b]` array cast to `[a, 1, b]` reads, at `(i, _, j)`, the operand at `(i, j)`. -/
theorem shapeCast_ab_a1b {a b : Nat} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by have := u.isLt; omega
    rw [Shape.rowMajor_val_three, Shape.rowMajor_val_two]
    show i.val * b + j.val = (i.val * 1 + u.val) * b + j.val
    rw [hu, Nat.mul_one, Nat.add_zero])

/-- An `[a, b, 1]` array broadcast to `[a, b, c]` reads, at `(i, j, _)`, the operand at `(i, j, 0)`. -/
theorem broadcastTo_ab1_abc {a b c : Nat} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) := by
  refine broadcastTo_apply x h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, _, k)`, the operand at `(i, 0, k)`. -/
theorem broadcastTo_a1c_abc {a b c : Nat} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A rank-3 array padded only at the high end of axis 1 reads, at `(i, j, k)` with `j` inside the operand, the
    operand there. -/
theorem pad3_axis1_high_inside {a b b' c : Nat} (p : Nat) (x : (⟨3, ![a, b, c]⟩ : Shape).Idx → α) {u : Shape} (v : u.Idx → α)
    (h : (⟨3, ![a, b, c]⟩ : Shape).Pads (![0, 0, 0] : Fin 3 → Nat) ![0, p, 0] ![0, 0, 0] ⟨3, ![a, b', c]⟩) (hu : 0 < u.numel)
    (i : Fin a) (j : Fin b) (j' : Fin b') (hj : j'.val = j.val) (k : Fin c) :
    pad ⟨3, ![a, b', c]⟩ (![0, 0, 0] : Fin 3 → Nat) ![0, p, 0] ![0, 0, 0] x v h hu (ix3 i j' k) = x (ix3 i j k) :=
  pad_apply_of_inside _ _ _ x v h hu _ _ (fun ax => by
    match ax with
    | ⟨0, _⟩ => show i.val = 0 + i.val * (0 + 1); omega
    | ⟨1, _⟩ => show j'.val = 0 + j.val * (0 + 1); omega
    | ⟨2, _⟩ => show k.val = 0 + k.val * (0 + 1); omega)

/-- A rank-2 array padded only at the high end of axis 1 reads, at `(i, j)` with `j` inside the operand, the operand
    there. -/
theorem pad2_axis1_high_inside {a b b' : Nat} (p : Nat) (x : (⟨2, ![a, b]⟩ : Shape).Idx → α) {u : Shape} (v : u.Idx → α)
    (h : (⟨2, ![a, b]⟩ : Shape).Pads (![0, 0] : Fin 2 → Nat) ![0, p] ![0, 0] ⟨2, ![a, b']⟩) (hu : 0 < u.numel)
    (i : Fin a) (j : Fin b) (j' : Fin b') (hj : j'.val = j.val) :
    pad ⟨2, ![a, b']⟩ (![0, 0] : Fin 2 → Nat) ![0, p] ![0, 0] x v h hu (ix2 i j') = x (ix2 i j) :=
  pad_apply_of_inside _ _ _ x v h hu _ _ (fun ax => by
    match ax with
    | ⟨0, _⟩ => show i.val = 0 + i.val * (0 + 1); omega
    | ⟨1, _⟩ => show j'.val = 0 + j.val * (0 + 1); omega)

end LastAxis
-- ==== Proof.Spec.lean ====
/-
  The per-point function both programs compute: a three-layer perceptron of widths 10 → 8 → 8 → 1 whose weights
  belong to the instance, applied to one point's ten coordinates, with the logistic function at the end.

  `affine x w b` is one output channel of a linear layer, the sum over the contracted axis of the products plus the
  bias; `relu` is the maximum with zero; `mlpAt` composes them.  The extended reals' addition is a commutative
  monoid, so the order in which a layer's products are added does not matter: `affine_unroll10` and
  `affine_unroll8` spell the sum as the left-nested chain that starts from zero, the order in which an explicit
  loop over the contracted axis accumulates it.
-/
import Idealize.ShloMosaic.PureOps.Ideal
import Idealize.ShloMosaic.PureOps.Ideal.Laws
import Idealize.ShloMosaic.Lib.ValueIdx

noncomputable section

namespace Mlp

open Idealize.ShloMosaic Idealize.ShloMosaic.ValueIdx

/-- One output channel of a linear layer: `∑ c, x c * w c + b`. -/
def affine {K : Nat} (x w : Fin K → EReal) (b : EReal) : EReal := (∑ c : Fin K, x c * w c) + b

/-- The rectifier. -/
def relu (z : EReal) : EReal := max z 0

/-- The perceptron at one point `x`: hidden layers of eight rectified channels each, one output channel, then the
    logistic function. `w1 f c` is the weight of input coordinate `c` in channel `f` of the first layer, and so on. -/
def mlpAt (x : Fin 10 → EReal) (w1 : Fin 8 → Fin 10 → EReal) (b1 : Fin 8 → EReal) (w2 : Fin 8 → Fin 8 → EReal)
    (b2 : Fin 8 → EReal) (w3 : Fin 8 → EReal) (b3 : EReal) : EReal :=
  Ideal.logistic (affine (fun f2 => relu (affine (fun f1 => relu (affine x (w1 f1) (b1 f1))) (w2 f2) (b2 f2))) w3 b3)

/-- The whole result: entry `(i, n)` is the perceptron with instance `i`'s weights at point `n` of instance `i`.
    The weights come as the arrays the parameter rows are cut into: `W1 : [64, 8, 10]`, `B1 : [64, 8]`, `W2 : [64, 8, 8]`,
    `B2 : [64, 8]`, `W3 : [64, 1, 8]`, `B3 : [64, 1]`. -/
def mlpArray (pts : (⟨3, ![64, 100000, 10]⟩ : Shape).Idx → EReal) (W1 : (⟨3, ![64, 8, 10]⟩ : Shape).Idx → EReal)
    (B1 : (⟨2, ![64, 8]⟩ : Shape).Idx → EReal) (W2 : (⟨3, ![64, 8, 8]⟩ : Shape).Idx → EReal)
    (B2 : (⟨2, ![64, 8]⟩ : Shape).Idx → EReal) (W3 : (⟨3, ![64, 1, 8]⟩ : Shape).Idx → EReal)
    (B3 : (⟨2, ![64, 1]⟩ : Shape).Idx → EReal) : (⟨2, ![64, 100000]⟩ : Shape).Idx → EReal := fun j =>
  mlpAt (fun k => pts (ix3 (j 0) (j 1) k)) (fun f k => W1 (ix3 (j 0) f k)) (fun f => B1 (ix2 (j 0) f))
    (fun f k => W2 (ix3 (j 0) f k)) (fun f => B2 (ix2 (j 0) f)) (fun k => W3 (ix3 (j 0) (0 : Fin 1) k)) (B3 (ix2 (j 0) (0 : Fin 1)))

/-- Ten products added one after the other, starting from zero. -/
theorem affine_unroll10 (x w : Fin 10 → EReal) (b : EReal) :
    affine x w b = ((((((((((0 + x ⟨0, by decide⟩ * w ⟨0, by decide⟩) + x ⟨1, by decide⟩ * w ⟨1, by decide⟩) + x ⟨2, by decide⟩ * w ⟨2, by decide⟩) + x ⟨3, by decide⟩ * w ⟨3, by decide⟩) + x ⟨4, by decide⟩ * w ⟨4, by decide⟩) + x ⟨5, by decide⟩ * w ⟨5, by decide⟩) + x ⟨6, by decide⟩ * w ⟨6, by decide⟩) + x ⟨7, by decide⟩ * w ⟨7, by decide⟩) + x ⟨8, by decide⟩ * w ⟨8, by decide⟩) + x ⟨9, by decide⟩ * w ⟨9, by decide⟩) + b := by
  unfold affine
  simp only [Fin.sum_univ_castSucc, Fin.sum_univ_zero]
  rfl

/-- Eight products added one after the other, starting from zero. -/
theorem affine_unroll8 (x w : Fin 8 → EReal) (b : EReal) :
    affine x w b = ((((((((0 + x ⟨0, by decide⟩ * w ⟨0, by decide⟩) + x ⟨1, by decide⟩ * w ⟨1, by decide⟩) + x ⟨2, by decide⟩ * w ⟨2, by decide⟩) + x ⟨3, by decide⟩ * w ⟨3, by decide⟩) + x ⟨4, by decide⟩ * w ⟨4, by decide⟩) + x ⟨5, by decide⟩ * w ⟨5, by decide⟩) + x ⟨6, by decide⟩ * w ⟨6, by decide⟩) + x ⟨7, by decide⟩ * w ⟨7, by decide⟩) + b := by
  unfold affine
  simp only [Fin.sum_univ_castSucc, Fin.sum_univ_zero]
  rfl

/-- The f32 pattern of one denotes the extended real `1`. -/
theorem ofBits_one_f32 : Ideal.ofBits .f32 0x3F800000#32 = 1 := by
  simp [Ideal.ofBits, Ideal.ieee, -EReal.coe_mul]; norm_num

end Mlp

end
-- ==== Proof.KernelBlock.lean ====
/-
  What the kernel body leaves in its output block, entry by entry.

  The body loads a block of 128 points of each of the 64 instances, the instance's weights, and writes one number per
  point.  Every operation in it is either pointwise or reads ONE entry of its operand (a width-one slice of the last
  axis, a shape cast that moves a unit axis, a broadcast along an axis), so the entry `(i, r)` of the stored block is a
  function of point `(i, r)`'s ten coordinates and of instance `i`'s weights: the perceptron `Mlp.mlpAt`.  Each
  linear layer is accumulated one contracted coordinate after the other from zero, which is the sum in the order
  `Mlp.affine_unroll10` / `affine_unroll8` spell.  The third layer is computed eight channels wide and only channel 0
  is kept, so of the third weight block only row 0 and of the third bias only entry 0 are read.
-/
import proofs.«426019_j42288247996640_4_alg».proof.Proof.Gen.KernelIdeal.Frame
import proofs.«426019_j42288247996640_4_alg».proof.Proof.LibLastAxis
import proofs.«426019_j42288247996640_4_alg».proof.Proof.Spec
import Idealize.ShloMosaic.Lib.ValueIdx
import Idealize.ShloMosaic.Lib.Pipeline.Value

noncomputable section

namespace Cert.KernelIdeal.BlockValue

open Idealize.ShloMosaic Idealize.ShloMosaic.ValueIdx Cert.KernelIdeal Cert.KernelIdeal.Gen LastAxis Mlp

theorem zeros2 : (![0, 0] : Fin 2 → Nat) = fun _ => 0 := by funext a; fin_cases a <;> rfl
theorem zeros3 : (![0, 0, 0] : Fin 3 → Nat) = fun _ => 0 := by funext a; fin_cases a <;> rfl

/-- The logistic function of a vector, entry by entry. -/
theorem logistic_apply {s : Shape} {φ : FTy} (x : FVec Ideal s φ) (i : s.Idx) : logistic x i = Ideal.logistic (x i) := rfl

/-- The zero a layer's accumulator starts from. -/
theorem scalar_zero_f32 : Scalar.ofBits (F := Ideal) .f32 0x00000000#32 = (0 : EReal) := Ideal.ofBits_zero_f32

set_option maxHeartbeats 4000000 in
theorem out_block_apply (x0 : Vec Ideal S64x128x10 .f32) (x1 : Vec Ideal S64x8x10 .f32) (x2 : Vec Ideal S64x8 .f32)
    (x3 : Vec Ideal S64x8x8 .f32) (x4 : Vec Ideal S64x8 .f32) (x5 : Vec Ideal S64x8x8 .f32) (x6 : Vec Ideal S64x8 .f32)
    (i : Fin 64) (r : Fin 128) :
    out0_7 (F := Ideal) x0 x1 x2 x3 x4 x5 x6 (ix2 i r)
      = mlpAt (fun c => x0 (ix3 i r c)) (fun f c => x1 (ix3 i f c)) (fun f => x2 (ix2 i f)) (fun f c => x3 (ix3 i f c))
          (fun f => x4 (ix2 i f)) (fun c => x5 (ix3 i ⟨0, by decide⟩ c)) (x6 (ix2 i ⟨0, by decide⟩)) := by
  unfold out0_7
  rw [View.canon_unit_zero zeros2]
  simp only [View.ld_unit_zero (S := S64x128x10) zeros3, View.ld_unit_zero (S := S64x8x10) zeros3,
    View.ld_unit_zero (S := S64x8x8) zeros3, View.ld_unit_zero (S := S64x8) zeros2]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, logistic_apply, addf_apply, mulf_apply, maximumf_apply, broadcast_apply,
    shapeCast_self, slice3_last_unit, shapeCast_ab1_ab, shapeCast_ab_a1b, broadcastTo_ab1_abc, broadcastTo_a1c_abc,
    scalar_zero_f32]
  simp only [mlpAt, relu, affine_unroll10, affine_unroll8]

/-- The same at any index of the block. -/
theorem out_block_apply_idx (x0 : Vec Ideal S64x128x10 .f32) (x1 : Vec Ideal S64x8x10 .f32) (x2 : Vec Ideal S64x8 .f32)
    (x3 : Vec Ideal S64x8x8 .f32) (x4 : Vec Ideal S64x8 .f32) (x5 : Vec Ideal S64x8x8 .f32) (x6 : Vec Ideal S64x8 .f32)
    (y : S64x128.Idx) :
    out0_7 (F := Ideal) x0 x1 x2 x3 x4 x5 x6 y
      = mlpAt (fun c => x0 (ix3 (y 0) (y 1) c)) (fun f c => x1 (ix3 (y 0) f c)) (fun f => x2 (ix2 (y 0) f)) (fun f c => x3 (ix3 (y 0) f c))
          (fun f => x4 (ix2 (y 0) f)) (fun c => x5 (ix3 (y 0) ⟨0, by decide⟩ c)) (x6 (ix2 (y 0) ⟨0, by decide⟩)) := by
  exact (congrArg (out0_7 (F := Ideal) x0 x1 x2 x3 x4 x5 x6) (eq_ix2 y)).trans (out_block_apply x0 x1 x2 x3 x4 x5 x6 (y 0) (y 1))

end Cert.KernelIdeal.BlockValue

end
-- ==== Proof.KernelArrays.lean ====
/-
  The kernel's result as one function of the two argument arrays.

  Before the region the host cuts the six weight arrays out of the parameter rows, pads the third layer's weights
  and bias with seven more channels, and pads the points with 96 more rows per instance so that 782 blocks of
  128 rows tile them.  Grid point `t` reads rows `128 t … 128 t + 127` of every instance and all the weights, and writes
  rows `128 t … 128 t + 127` of the output; those blocks tile the output array, so after the region the array holds the
  perceptron of each (padded) point with its instance's weights.  After the region the host keeps the first
  100000 rows, all of which are rows of the unpadded points; the third layer reads only channel 0 of its weights,
  which the padding leaves alone.  So the padding values reach no kept entry.
-/
import proofs.«426019_j42288247996640_4_alg».proof.Proof.Gen.KernelIdeal.Frame
import proofs.«426019_j42288247996640_4_alg».proof.Proof.LibLastAxis
import proofs.«426019_j42288247996640_4_alg».proof.Proof.Spec
import proofs.«426019_j42288247996640_4_alg».proof.Proof.KernelBlock
import Idealize.ShloMosaic.Lib.ValueIdx
import Idealize.ShloMosaic.Lib.Pipeline.Value
import Idealize.ShloMosaic.Lib.StableHlo.Run

set_option maxRecDepth 16384

noncomputable section

namespace Cert.KernelIdeal.ArrayValue

open Idealize.ShloMosaic Idealize.ShloMosaic.TcCoe Idealize.ShloMosaic.ValueIdx Idealize.SL.Sem
open Cert.KernelIdeal Cert.KernelIdeal.Gen Cert.KernelIdeal.BlockValue LastAxis Mlp
open Idealize.ShloMosaic.Pipeline (Dat)

variable (m : (ℓ : Loc nD τ sig) → Buf (Elt Ideal) ℓ) (ρ : Dev nD → PrngReg)

/-! ## The weights, cut out of the parameter rows -/

/-- First layer's weights: columns 0–79 of the parameter rows, as eight rows of ten. -/
def W1 (f : Vec Ideal S64x169 .f32) : Vec Ideal S64x8x10 .f32 :=
  shapeCast S64x8x10 (extractStridedSlice S64x80 ![0, 0] f slices_S64x169_S64x80_0_0) shapeCasts_S64x80_S64x8x10
/-- First layer's bias: columns 80–87. -/
def B1 (f : Vec Ideal S64x169 .f32) : Vec Ideal S64x8 .f32 := extractStridedSlice S64x8 ![0, 80] f slices_S64x169_S64x8_0_80
/-- Second layer's weights: columns 88–151, as eight rows of eight. -/
def W2 (f : Vec Ideal S64x169 .f32) : Vec Ideal S64x8x8 .f32 :=
  shapeCast S64x8x8 (extractStridedSlice S64x64 ![0, 88] f slices_S64x169_S64x64_0_88) shapeCasts_S64x64_S64x8x8
/-- Second layer's bias: columns 152–159. -/
def B2 (f : Vec Ideal S64x169 .f32) : Vec Ideal S64x8 .f32 := extractStridedSlice S64x8 ![0, 152] f slices_S64x169_S64x8_0_152
/-- Third layer's weights: columns 160–167, one row of eight. -/
def W3 (f : Vec Ideal S64x169 .f32) : Vec Ideal S64x1x8 .f32 :=
  shapeCast S64x1x8 (extractStridedSlice S64x8 ![0, 160] f slices_S64x169_S64x8_0_160) shapeCasts_S64x8_S64x1x8
/-- Third layer's bias: column 168. -/
def B3 (f : Vec Ideal S64x169 .f32) : Vec Ideal S64x1 .f32 := extractStridedSlice S64x1 ![0, 168] f slices_S64x169_S64x1_0_168

/-- The value the three pads fill with: the integer zero converted. -/
def padv : FVec Ideal S_ .f32 := sitofp .f32 (constantI S_ 32 0#32)

abbrev flt (c : Dev nD) : Vec Ideal S64x169 .f32 := m ((c : Thread nD τ).loc main_arg1)
abbrev pts (c : Dev nD) : Vec Ideal S64x100000x10 .f32 := m ((c : Thread nD τ).loc main_arg0)

/-! ## What the region finds in its windows' arrays -/

theorem V_v1 (c : Dev nD) : (V m c main_v1 : S64x8x10.Idx → EReal) = W1 (flt m c) := by
  dsimp only [V, V0]
  simp only [hostOps0, hostOps0_1, hostOps0_2, hostOps0_3, hostOps0_4, hostOps0_5, List.flatten_cons, List.flatten_nil,
    List.append_nil, List.cons_append, List.nil_append]
  after_results
  rfl
theorem V_v2 (c : Dev nD) : (V m c main_v2 : S64x8.Idx → EReal) = B1 (flt m c) := by
  dsimp only [V, V0]
  simp only [hostOps0, hostOps0_1, hostOps0_2, hostOps0_3, hostOps0_4, hostOps0_5, List.flatten_cons, List.flatten_nil,
    List.append_nil, List.cons_append, List.nil_append]
  after_results
  rfl
theorem V_v4 (c : Dev nD) : (V m c main_v4 : S64x8x8.Idx → EReal) = W2 (flt m c) := by
  dsimp only [V, V0]
  simp only [hostOps0, hostOps0_1, hostOps0_2, hostOps0_3, hostOps0_4, hostOps0_5, List.flatten_cons, List.flatten_nil,
    List.append_nil, List.cons_append, List.nil_append]
  after_results
  rfl
theorem V_v5 (c : Dev nD) : (V m c main_v5 : S64x8.Idx → EReal) = B2 (flt m c) := by
  dsimp only [V, V0]
  simp only [hostOps0, hostOps0_1, hostOps0_2, hostOps0_3, hostOps0_4, hostOps0_5, List.flatten_cons, List.flatten_nil,
    List.append_nil, List.cons_append, List.nil_append]
  after_results
  rfl
theorem V_v9 (c : Dev nD) : (V m c main_v9 : S64x8x8.Idx → EReal)
    = pad S64x8x8 ![0, 0, 0] ![0, 7, 0] ![0, 0, 0] (W3 (flt m c)) padv pads_S64x1x8_S64x8x8_000_070_000 h_S_ := by
  dsimp only [V, V0]
  simp only [hostOps0, hostOps0_1, hostOps0_2, hostOps0_3, hostOps0_4, hostOps0_5, List.flatten_cons, List.flatten_nil,
    List.append_nil, List.cons_append, List.nil_append]
  after_results
  rfl
theorem V_v10 (c : Dev nD) : (V m c main_v10 : S64x8.Idx → EReal)
    = pad S64x8 ![0, 0] ![0, 7] ![0, 0] (B3 (flt m c)) padv pads_S64x1_S64x8_000_070 h_S_ := by
  dsimp only [V, V0]
  simp only [hostOps0, hostOps0_1, hostOps0_2, hostOps0_3, hostOps0_4, hostOps0_5, List.flatten_cons, List.flatten_nil,
    List.append_nil, List.cons_append, List.nil_append]
  after_results
  rfl
theorem V_v11 (c : Dev nD) : (V m c main_v11 : S64x100096x10.Idx → EReal)
    = pad S64x100096x10 ![0, 0, 0] ![0, 96, 0] ![0, 0, 0] (pts m c) padv pads_S64x100000x10_S64x100096x10_000_0960_000 h_S_ := by
  dsimp only [V, V0]
  simp only [hostOps0, hostOps0_1, hostOps0_2, hostOps0_3, hostOps0_4, hostOps0_5, List.flatten_cons, List.flatten_nil,
    List.append_nil, List.cons_append, List.nil_append]
  after_results
  rfl

/-! ## The output array after the region -/

/-- The perceptron of every padded point with its instance's (padded) weights, as the region finds them. -/
def Gpad (c : Dev nD) : S64x100096.Idx → EReal := fun j =>
  mlpAt (fun k => (V m c main_v11 : S64x100096x10.Idx → EReal) (ix3 (j 0) (j 1) k))
    (fun f k => (V m c main_v1 : S64x8x10.Idx → EReal) (ix3 (j 0) f k)) (fun f => (V m c main_v2 : S64x8.Idx → EReal) (ix2 (j 0) f))
    (fun f k => (V m c main_v4 : S64x8x8.Idx → EReal) (ix3 (j 0) f k)) (fun f => (V m c main_v5 : S64x8.Idx → EReal) (ix2 (j 0) f))
    (fun k => (V m c main_v9 : S64x8x8.Idx → EReal) (ix3 (j 0) ⟨0, by decide⟩ k)) ((V m c main_v10 : S64x8.Idx → EReal) (ix2 (j 0) ⟨0, by decide⟩))

/-- The printed index maps over the grid: the weights' blocks are the whole arrays, the points' block and the output's
    block at point `t` are both block `t` along the row axis. -/
theorem idx_facts : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 3) = 0 ∧ win0_5.index t (1 : Fin 3) = 0 ∧ win0_5.index t (2 : Fin 3) = 0
    ∧ win0_6.index t (0 : Fin 2) = 0 ∧ win0_6.index t (1 : Fin 2) = 0
    ∧ win0_7.index t (0 : Fin 2) = 0 ∧ win0_7.index t (1 : Fin 2) = t.val :=
  (by decide +kernel : ∀ t : Fin grid0.N, _)

/-- Point `t`'s block of the padded points is rows `128 t … 128 t + 127` of every instance. -/
theorem blk0 (c : Dev nD) (t : Fin cfg0.N) (p : Fin 64) (r : Fin 128) (k : Fin 10) (q : Fin 64) (n : Fin 100096)
    (hq : q.val = p.val) (hn : n.val = t.val * 128 + r.val) :
    iblk m c 0 t (ix3 p r k) = (V m c main_v11 : S64x100096x10.Idx → EReal) (ix3 q n k) := by
  obtain ⟨a00, a01, a02, -⟩ := idx_facts t
  show (V m c main_v11 : S64x100096x10.Idx → EReal) (((cfg0.win 0).blk t).view.emb (ix3 p r k)) = _
  congr 1
  funext a; apply Fin.ext
  match a with
  | ⟨0, _⟩ => show win0_0.index t (0 : Fin 3) * 64 + 1 * p.val = q.val; omega
  | ⟨1, _⟩ => show win0_0.index t (1 : Fin 3) * 128 + 1 * r.val = n.val; omega
  | ⟨2, _⟩ => show win0_0.index t (2 : Fin 3) * 10 + 1 * k.val = k.val; omega

/-- Every point's block of a weight array is the whole array. -/
theorem blk1 (c : Dev nD) (t : Fin cfg0.N) (p q : Fin 64) (hq : q.val = p.val) (f : Fin 8) (k : Fin 10) :
    iblk m c 1 t (ix3 p f k) = (V m c main_v1 : S64x8x10.Idx → EReal) (ix3 q f k) := by
  obtain ⟨-, -, -, a10, a11, a12, -⟩ := idx_facts t
  show (V m c main_v1 : S64x8x10.Idx → EReal) (((cfg0.win 1).blk t).view.emb (ix3 p f k)) = _
  congr 1
  funext a; apply Fin.ext
  match a with
  | ⟨0, _⟩ => show win0_1.index t (0 : Fin 3) * 64 + 1 * p.val = q.val; omega
  | ⟨1, _⟩ => show win0_1.index t (1 : Fin 3) * 8 + 1 * f.val = f.val; omega
  | ⟨2, _⟩ => show win0_1.index t (2 : Fin 3) * 10 + 1 * k.val = k.val; omega
theorem blk2 (c : Dev nD) (t : Fin cfg0.N) (p q : Fin 64) (hq : q.val = p.val) (f : Fin 8) :
    iblk m c 2 t (ix2 p f) = (V m c main_v2 : S64x8.Idx → EReal) (ix2 q f) := by
  obtain ⟨-, -, -, -, -, -, a20, a21, -⟩ := idx_facts t
  show (V m c main_v2 : S64x8.Idx → EReal) (((cfg0.win 2).blk t).view.emb (ix2 p f)) = _
  congr 1
  funext a; apply Fin.ext
  match a with
  | ⟨0, _⟩ => show win0_2.index t (0 : Fin 2) * 64 + 1 * p.val = q.val; omega
  | ⟨1, _⟩ => show win0_2.index t (1 : Fin 2) * 8 + 1 * f.val = f.val; omega
theorem blk3 (c : Dev nD) (t : Fin cfg0.N) (p q : Fin 64) (hq : q.val = p.val) (f : Fin 8) (k : Fin 8) :
    iblk m c 3 t (ix3 p f k) = (V m c main_v4 : S64x8x8.Idx → EReal) (ix3 q f k) := by
  obtain ⟨-, -, -, -, -, -, -, -, a30, a31, a32, -⟩ := idx_facts t
  show (V m c main_v4 : S64x8x8.Idx → EReal) (((cfg0.win 3).blk t).view.emb (ix3 p f k)) = _
  congr 1
  funext a; apply Fin.ext
  match a with
  | ⟨0, _⟩ => show win0_3.index t (0 : Fin 3) * 64 + 1 * p.val = q.val; omega
  | ⟨1, _⟩ => show win0_3.index t (1 : Fin 3) * 8 + 1 * f.val = f.val; omega
  | ⟨2, _⟩ => show win0_3.index t (2 : Fin 3) * 8 + 1 * k.val = k.val; omega
theorem blk4 (c : Dev nD) (t : Fin cfg0.N) (p q : Fin 64) (hq : q.val = p.val) (f : Fin 8) :
    iblk m c 4 t (ix2 p f) = (V m c main_v5 : S64x8.Idx → EReal) (ix2 q f) := by
  obtain ⟨-, -, -, -, -, -, -, -, -, -, -, a40, a41, -⟩ := idx_facts t
  show (V m c main_v5 : S64x8.Idx → EReal) (((cfg0.win 4).blk t).view.emb (ix2 p f)) = _
  congr 1
  funext a; apply Fin.ext
  match a with
  | ⟨0, _⟩ => show win0_4.index t (0 : Fin 2) * 64 + 1 * p.val = q.val; omega
  | ⟨1, _⟩ => show win0_4.index t (1 : Fin 2) * 8 + 1 * f.val = f.val; omega
theorem blk5 (c : Dev nD) (t : Fin cfg0.N) (p q : Fin 64) (hq : q.val = p.val) (f : Fin 8) (k : Fin 8) :
    iblk m c 5 t (ix3 p f k) = (V m c main_v9 : S64x8x8.Idx → EReal) (ix3 q f k) := by
  obtain ⟨-, -, -, -, -, -, -, -, -, -, -, -, -, a50, a51, a52, -⟩ := idx_facts t
  show (V m c main_v9 : S64x8x8.Idx → EReal) (((cfg0.win 5).blk t).view.emb (ix3 p f k)) = _
  congr 1
  funext a; apply Fin.ext
  match a with
  | ⟨0, _⟩ => show win0_5.index t (0 : Fin 3) * 64 + 1 * p.val = q.val; omega
  | ⟨1, _⟩ => show win0_5.index t (1 : Fin 3) * 8 + 1 * f.val = f.val; omega
  | ⟨2, _⟩ => show win0_5.index t (2 : Fin 3) * 8 + 1 * k.val = k.val; omega
theorem blk6 (c : Dev nD) (t : Fin cfg0.N) (p q : Fin 64) (hq : q.val = p.val) (f : Fin 8) :
    iblk m c 6 t (ix2 p f) = (V m c main_v10 : S64x8.Idx → EReal) (ix2 q f) := by
  obtain ⟨-, -, -, -, -, -, -, -, -, -, -, -, -, -, -, -, a60, a61, -⟩ := idx_facts t
  show (V m c main_v10 : S64x8.Idx → EReal) (((cfg0.win 6).blk t).view.emb (ix2 p f)) = _
  congr 1
  funext a; apply Fin.ext
  match a with
  | ⟨0, _⟩ => show win0_6.index t (0 : Fin 2) * 64 + 1 * p.val = q.val; omega
  | ⟨1, _⟩ => show win0_6.index t (1 : Fin 2) * 8 + 1 * f.val = f.val; omega

/-- What point `t` writes back is block `t` of `Gpad`. -/
theorem flushed_eq (c : Dev nD) (t : Fin cfg0.N) :
    (dats m 0 c).flushed 7 t = ((cfg0.win 7).blk t).view.read (Elt Ideal) (Gpad m c) := by
  show (cfg0.win 7).cut (grid0.coords t) ((dats m 0 c).after 7 t) = _
  rw [after0_7]
  obtain ⟨-, -, -, -, -, -, -, -, -, -, -, -, -, -, -, -, -, -, a70, a71⟩ := idx_facts t
  funext y
  show out0_7 (iblk m c 0 t) (iblk m c 1 t) (iblk m c 2 t) (iblk m c 3 t) (iblk m c 4 t) (iblk m c 5 t) (iblk m c 6 t) y
    = Gpad m c (((cfg0.win 7).blk t).view.emb y)
  refine (out_block_apply_idx (iblk m c 0 t) (iblk m c 1 t) (iblk m c 2 t) (iblk m c 3 t) (iblk m c 4 t) (iblk m c 5 t) (iblk m c 6 t) y).trans ?_
  have e0 : ((((cfg0.win 7).blk t).view.emb y) 0).val = (y 0).val := by
    show win0_7.index t (0 : Fin 2) * 64 + 1 * (y 0).val = (y 0).val; omega
  have e1 : ((((cfg0.win 7).blk t).view.emb y) 1).val = t.val * 128 + (y 1).val := by
    show win0_7.index t (1 : Fin 2) * 128 + 1 * (y 1).val = t.val * 128 + (y 1).val; omega
  unfold Gpad
  refine congr (congr (congr (congr (congr (congr (congrArg mlpAt ?_) ?_) ?_) ?_) ?_) ?_) ?_
  · funext k; exact blk0 m c t (y 0) (y 1) k _ _ e0 e1
  · funext f k; exact blk1 m c t (y 0) _ e0 f k
  · funext f; exact blk2 m c t (y 0) _ e0 f
  · funext f k; exact blk3 m c t (y 0) _ e0 f k
  · funext f; exact blk4 m c t (y 0) _ e0 f
  · funext k; exact blk5 m c t (y 0) _ e0 ⟨0, by decide⟩ k
  · exact blk6 m c t (y 0) _ e0 ⟨0, by decide⟩

/-- An index of the output array is in point `t`'s block iff each coordinate is in the block's range on its axis. -/
theorem mem_blk (t : Fin cfg0.N) (i : S64x100096.Idx) :
    i ∈ ((cfg0.win 7).blk t).view.set ↔ ∀ a : Fin 2, win0_7.index t a * S64x128.size a ≤ (i a).val
      ∧ (i a).val < win0_7.index t a * S64x128.size a + S64x128.size a := by
  show i ∈ ((View.whole main_v12).slice (win0_7.rect t)).set ↔ _
  rw [View.set_slice_whole, Rect.mem_set_unit]
  exact Iff.rfl

/-- Row `n` of the output lies in the block of point `n / 128`: the 782 blocks tile the array. -/
theorem cover (i : S64x100096.Idx) :
    ∃ t : Fin cfg0.N, (cfg0.win 7).flush t = true ∧ i ∈ ((cfg0.win 7).blk t).view.set := by
  have hi0 : (i 0).val < 64 := (i 0).isLt
  have hi1 : (i 1).val < 100096 := (i 1).isLt
  have hN : cfg0.N = 782 := N_0
  let t : Fin cfg0.N := ⟨(i 1).val / 128, by rw [hN]; omega⟩
  obtain ⟨-, -, -, -, -, -, -, -, -, -, -, -, -, -, -, -, -, -, a70, a71⟩ := idx_facts t
  have ht : t.val = (i 1).val / 128 := rfl
  refine ⟨t, flush0_7 t, ?_⟩
  rw [mem_blk]
  intro a
  match a with
  | ⟨0, _⟩ => show win0_7.index t (0 : Fin 2) * 64 ≤ (i 0).val ∧ (i 0).val < win0_7.index t (0 : Fin 2) * 64 + 64; omega
  | ⟨1, _⟩ => show win0_7.index t (1 : Fin 2) * 128 ≤ (i 1).val ∧ (i 1).val < win0_7.index t (1 : Fin 2) * 128 + 128; omega

/-- The output array after the region. -/
theorem final (c : Dev nD) : (dats m 0 c).arrAt 7 cfg0.N = Gpad m c :=
  (dats m 0 c).arrAt_eq_of_cover 7 (Gpad m c) (fun t _ => flushed_eq m c t) cover

/-! ## The kept rows -/

/-- On the first 100000 rows the padded points are the points, row 0 of the padded third-layer weights is the
    third layer's weights, and entry 0 of its padded bias is its bias: there `Gpad` is the perceptron of the arguments. -/
theorem Gpad_kept (c : Dev nD) (i : Fin 64) (n : Fin 100000) (n' : Fin 100096) (hn : n'.val = n.val) :
    Gpad m c (ix2 i n')
      = mlpArray (pts m c) (W1 (flt m c)) (B1 (flt m c)) (W2 (flt m c)) (B2 (flt m c)) (W3 (flt m c)) (B3 (flt m c)) (ix2 i n) := by
  unfold Gpad mlpArray
  rw [V_v1, V_v2, V_v4, V_v5, V_v9, V_v10, V_v11]
  refine congr (congr (congr (congr (congr (congr (congrArg mlpAt ?_) rfl) rfl) rfl) rfl) ?_) ?_
  · funext k
    exact pad3_axis1_high_inside 96 (pts m c) padv pads_S64x100000x10_S64x100096x10_000_0960_000 h_S_ i n n' hn k
  · funext k
    exact pad3_axis1_high_inside 7 (W3 (flt m c)) padv pads_S64x1x8_S64x8x8_000_070_000 h_S_ i (0 : Fin 1) ⟨0, by decide⟩ rfl k
  · exact pad2_axis1_high_inside 7 (B3 (flt m c)) padv pads_S64x1_S64x8_000_070 h_S_ i (0 : Fin 1) ⟨0, by decide⟩ rfl

/-- The result buffer after the run: the first 100000 rows of the output array. -/
theorem tail_eq (c : Dev nD) :
    Pipeline.afterTail₀ cfgs (dats m) 0 (V0 m) [hostOps1] c main_v13
      = mlpArray (pts m c) (W1 (flt m c)) (B1 (flt m c)) (W2 (flt m c)) (B2 (flt m c)) (W3 (flt m c)) (B3 (flt m c)) := by
  unfold Pipeline.afterTail₀
  show StableHlo.after hostOps1 _ (Proc.devRef .tc main_v13) = _
  after_results
  rw [show Pipeline.withArrays (cfgs 0).spec c (V0 m c) (fun w => (dats m 0 c).arrAt w (cfgs 0).N) (Proc.devRef .tc main_v12)
      = Gpad m c from (Pipeline.withArrays_arr spec0 launch0.win.arr_inj c _ _ 7).trans (final m c)]
  funext j
  obtain ⟨i, n, rfl⟩ : ∃ (i : Fin 64) (n : Fin 100000), j = ix2 i n := ⟨j 0, j 1, eq_ix2 j⟩
  refine (extractStridedSlice_apply ![0, 0] (Gpad m c) slices_S64x100096_S64x100000_0_0 (ix2 i n)
    (ix2 i ⟨n.val, by have := n.isLt; omega⟩) (fun a => match a with
      | ⟨0, _⟩ => by show i.val = 0 + i.val; omega
      | ⟨1, _⟩ => by show n.val = 0 + n.val; omega)).trans ?_
  exact Gpad_kept m c i n _ rfl

/-! ## The run -/

/-- Every weakly fair execution of the kernel's program terminates with the result buffer at the perceptron of the
    argument arrays, and the arguments unchanged. -/
theorem run : θ_run defs (onTc (τ := τ) (main (F := Ideal))) ⟨m, fun _ => 0, ρ⟩ fun r => ∀ c : Dev nD,
      r.2.mem ((c : Thread nD τ).loc main_v13)
        = mlpArray (pts m c) (W1 (flt m c)) (B1 (flt m c)) (W2 (flt m c)) (B2 (flt m c)) (W3 (flt m c)) (B3 (flt m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v13 (Pipeline.mem_restRefs_of main_v13 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.ArrayValue

end
-- ==== Proof.RefValue.lean ====
/-
  The reference's result, entry by entry.

  The reference computes each layer as one batched product over the instances, adds the bias broadcast over the
  points, rectifies, and ends with `1 / (1 + exp (-z))`.  At an index `(i, n)` a batched product is the sum over the
  contracted axis of point `(i, n)`'s entries times instance `i`'s weights, which is `Mlp.affine`; the last expression is
  the logistic function by definition.  So the result is `Mlp.mlpArray` of the points and of the weight arrays the
  reference cuts out of the parameter rows.
-/
import proofs.«426019_j42288247996640_4_alg».proof.Proof.Gen.ReferenceIdeal.Read
import proofs.«426019_j42288247996640_4_alg».proof.Proof.Spec
import Idealize.ShloMosaic.Lib.ValueIdx

noncomputable section

namespace Cert.ReferenceIdeal.RefValue

open Idealize.ShloMosaic Idealize.ShloMosaic.ValueIdx Cert.ReferenceIdeal Cert.ReferenceIdeal.Read Mlp

variable (x0 : (⟨S64x100000x10, .f32⟩ : BufTy).Contents (Elt Ideal)) (x1 : (⟨S64x169, .f32⟩ : BufTy).Contents (Elt Ideal))

/-- The first hidden layer at point `(i, n)`, channel `f`. -/
theorem h1_apply (i : Fin 64) (n : Fin 100000) (f : Fin 8) :
    val_main_v7 (F := Ideal) x0 x1 (ix3 i n f)
      = relu (affine (fun k => x0 (ix3 i n k)) (fun k => val_main_v1 (F := Ideal) x1 (ix3 i f k)) (val_main_v2 (F := Ideal) x1 (ix2 i f))) := by
  rw [val_main_v7_apply, val_main_v6_apply, val_main_v3_apply, val_main_v5_apply, val_main_v4_apply, val_main_call0_v0_apply,
    val_main_call0_cst_apply]
  have el : ∀ k, lidx_main_v3 (ix3 i n f) k = ix3 i n k := fun k => funext fun a => match a with
    | ⟨0, _⟩ => rfl | ⟨1, _⟩ => rfl | ⟨2, _⟩ => rfl
  have er : ∀ k, ridx_main_v3 (ix3 i n f) k = ix3 i f k := fun k => funext fun a => match a with
    | ⟨0, _⟩ => rfl | ⟨1, _⟩ => rfl | ⟨2, _⟩ => rfl
  have eb : idx_main_v4 (idx_main_v5 (ix3 i n f)) = ix2 i f := funext fun a => match a with
    | ⟨0, _⟩ => rfl | ⟨1, _⟩ => rfl
  simp only [el, er, eb]
  show max ((∑ k : Fin 10, _) + _) (Ideal.ofBits .f32 0x00000000#32) = _
  rw [Ideal.ofBits_zero_f32]
  rfl

/-- The second hidden layer at point `(i, n)`, channel `f`. -/
theorem h2_apply (i : Fin 64) (n : Fin 100000) (f : Fin 8) :
    val_main_v15 (F := Ideal) x0 x1 (ix3 i n f)
      = relu (affine (fun k => val_main_v7 (F := Ideal) x0 x1 (ix3 i n k)) (fun k => val_main_v9 (F := Ideal) x1 (ix3 i f k))
          (val_main_v10 (F := Ideal) x1 (ix2 i f))) := by
  rw [val_main_v15_apply, val_main_v14_apply, val_main_v11_apply, val_main_v13_apply, val_main_v12_apply, val_main_call1_v0_apply,
    val_main_call1_cst_apply]
  have el : ∀ k, lidx_main_v11 (ix3 i n f) k = ix3 i n k := fun k => funext fun a => match a with
    | ⟨0, _⟩ => rfl | ⟨1, _⟩ => rfl | ⟨2, _⟩ => rfl
  have er : ∀ k, ridx_main_v11 (ix3 i n f) k = ix3 i f k := fun k => funext fun a => match a with
    | ⟨0, _⟩ => rfl | ⟨1, _⟩ => rfl | ⟨2, _⟩ => rfl
  have eb : idx_main_v12 (idx_main_v13 (ix3 i n f)) = ix2 i f := funext fun a => match a with
    | ⟨0, _⟩ => rfl | ⟨1, _⟩ => rfl
  simp only [el, er, eb]
  show max ((∑ k : Fin 8, _) + _) (Ideal.ofBits .f32 0x00000000#32) = _
  rw [Ideal.ofBits_zero_f32]
  rfl

/-- The result at `(i, n)`: the logistic function of the output layer. -/
theorem out_apply (i : Fin 64) (n : Fin 100000) :
    val_main_v29 (F := Ideal) x0 x1 (ix2 i n)
      = Ideal.logistic (affine (fun k => val_main_v15 (F := Ideal) x0 x1 (ix3 i n k))
          (fun k => val_main_v17 (F := Ideal) x1 (ix3 i (0 : Fin 1) k)) (val_main_v18 (F := Ideal) x1 (ix2 i (0 : Fin 1)))) := by
  rw [val_main_v29_apply, val_main_v28_apply, val_main_cst_0_apply, val_main_v27_apply, val_main_v26_apply, val_main_cst_apply,
    val_main_v25_apply, val_main_v24_apply, val_main_v23_apply, val_main_v22_apply, val_main_v19_apply, val_main_v21_apply,
    val_main_v20_apply]
  have e23 : idx_main_v23 (ix2 i n) = ix3 i n (0 : Fin 1) := funext fun a => Fin.ext (by
    match a with
    | ⟨0, _⟩ => show (i.val * 100000 + n.val) / 100000 = i.val; have := n.isLt; omega
    | ⟨1, _⟩ => show (i.val * 100000 + n.val) / 1 % 100000 = n.val; have := n.isLt; omega
    | ⟨2, _⟩ => rfl)
  rw [e23]
  have el : ∀ k, lidx_main_v19 (ix3 i n (0 : Fin 1)) k = ix3 i n k := fun k => funext fun a => match a with
    | ⟨0, _⟩ => rfl | ⟨1, _⟩ => rfl | ⟨2, _⟩ => rfl
  have er : ∀ k, ridx_main_v19 (ix3 i n (0 : Fin 1)) k = ix3 i (0 : Fin 1) k := fun k => funext fun a => match a with
    | ⟨0, _⟩ => rfl | ⟨1, _⟩ => rfl | ⟨2, _⟩ => rfl
  have eb : idx_main_v20 (idx_main_v21 (ix3 i n (0 : Fin 1))) = ix2 i (0 : Fin 1) := funext fun a => match a with
    | ⟨0, _⟩ => rfl | ⟨1, _⟩ => rfl
  simp only [el, er, eb]
  show Ideal.div (Ideal.ofBits .f32 0x3F800000#32) (Ideal.ofBits .f32 0x3F800000#32 + Ideal.exp (-((∑ k : Fin 8, _) + _))) = _
  rw [ofBits_one_f32]
  rfl

/-- The reference's result is the perceptron of every point with its instance's weights. -/
theorem result_eq :
    val_main_v29 (F := Ideal) x0 x1
      = mlpArray x0 (val_main_v1 (F := Ideal) x1) (val_main_v2 (F := Ideal) x1) (val_main_v9 (F := Ideal) x1)
          (val_main_v10 (F := Ideal) x1) (val_main_v17 (F := Ideal) x1) (val_main_v18 (F := Ideal) x1) := by
  funext j
  obtain ⟨i, n, rfl⟩ : ∃ (i : Fin 64) (n : Fin 100000), j = ix2 i n := ⟨j 0, j 1, eq_ix2 j⟩
  rw [out_apply]
  simp only [h2_apply, h1_apply]
  rfl

end Cert.ReferenceIdeal.RefValue

end
-- ==== Proof.lean ====
/-
  The kernel and its reference compute the same function: for each of 64 instances a three-layer perceptron
  (widths 10 → 8 → 8 → 1, rectified hidden layers, the logistic function at the end) whose weights are instance
  `i`'s row of the parameter array, applied to each of instance `i`'s 100000 points.

  • The kernel (Proof/KernelBlock.lean, Proof/KernelArrays.lean) pads the points to 782 blocks of 128 rows and the
    third layer to eight channels, accumulates each layer one contracted coordinate after the other from zero, and
    keeps channel 0 of the third layer and the first 100000 rows: its result is `Mlp.mlpArray` of the arguments.
  • The reference (Proof/RefValue.lean) computes each layer as a batched product: at an index the same sums.
  • Both cut the weights out of the parameter rows by the same slices and reshapes, so the two results are one term
    once the arguments agree.  Extended-real addition is commutative and associative and the two programs use the
    same operations otherwise (the maximum with zero; `1 / (1 + exp (-z))` is the logistic function by definition), so
    the claim needs nothing of the inputs: the precondition is not used.
  • The frames are the generated ones; the idealization rewrote nothing, so `preserves` is trivial.
-/
import proofs.«426019_j42288247996640_4_alg».proof.Defs
import proofs.«426019_j42288247996640_4_alg».proof.Proof.Gen.Kernel
import proofs.«426019_j42288247996640_4_alg».proof.Proof.Gen.Kernel.Skeleton
import proofs.«426019_j42288247996640_4_alg».proof.Proof.Gen.Kernel.Launch
import proofs.«426019_j42288247996640_4_alg».proof.Proof.Gen.Kernel.Points
import proofs.«426019_j42288247996640_4_alg».proof.Proof.Gen.Kernel.Frame
import proofs.«426019_j42288247996640_4_alg».proof.Proof.Gen.KernelIdeal
import proofs.«426019_j42288247996640_4_alg».proof.Proof.Gen.KernelIdeal.Skeleton
import proofs.«426019_j42288247996640_4_alg».proof.Proof.Gen.KernelIdeal.Launch
import proofs.«426019_j42288247996640_4_alg».proof.Proof.Gen.KernelIdeal.Points
import proofs.«426019_j42288247996640_4_alg».proof.Proof.Gen.KernelIdeal.Frame
import proofs.«426019_j42288247996640_4_alg».proof.Proof.Gen.ReferenceIdeal
import proofs.«426019_j42288247996640_4_alg».proof.Proof.Gen.ReferenceIdeal.Run
import proofs.«426019_j42288247996640_4_alg».proof.Proof.Gen.ReferenceIdeal.Read
import proofs.«426019_j42288247996640_4_alg».proof.Proof.Gen.Pre_finite_inputs
import proofs.«426019_j42288247996640_4_alg».proof.Proof.KernelArrays
import proofs.«426019_j42288247996640_4_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

open Cert.KernelIdeal.ArrayValue in
/-- Both runs end with the result at the perceptron of the (agreeing) arguments. -/
theorem algebraic : Cert.algebraic_KernelIdeal_ReferenceIdeal := by
  intro m ρ m' ρ' _ hagree
  refine ⟨fun c => Mlp.mlpArray (pts m c) (W1 (flt m c)) (B1 (flt m c)) (W2 (flt m c)) (B2 (flt m c)) (W3 (flt m c)) (B3 (flt m c)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.ReferenceIdeal.RefValue.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
